-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S1024x512 .f32) (main_arg1 : FVec F S512x512 .f32) (main_arg2 : FVec F S512 .f32) (main_arg3 : FVec F S512x512 .f32) (main_arg4 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S1x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  broadcasts_S1x512_S512x512 : S1x512.Broadcasts S512x512
  concatenates_S512x512_S512x512_S512x1024_d1 : Shape.Concatenates [S512x512, S512x512] S512x1024 1
  dot_S512x512_S512x512_S512x512_1_1_0_0_n_n_wf : DotDims.WF S512x512 S512x512 S512x512 [1] [1] [0] [0] [] []
  dot_S512x1024_S512x1024_S512x512_1_1_0_0_n_n_wf : DotDims.WF S512x1024 S512x1024 S512x512 [1] [1] [0] [0] [] []
  dot_S1x512_S512x512_S1x512_1_1_0_0_n_n_wf : DotDims.WF S1x512 S512x512 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S1024x512.size a
  hwx0_5 : ∀ i : grid0.Coords, EltTy.bits .f32 = 32 ∨ (Rect.block (s := S1024x512) S512x512.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S1024x1x512 : Shape := ⟨3, ![1024, 1, 512]⟩
abbrev S1x512x512 : Shape := ⟨3, ![1, 512, 512]⟩
abbrev S1024x512x512 : Shape := ⟨3, ![1024, 512, 512]⟩

abbrev nBuf : Space → Nat
  | .hbm => 36
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S1024x512, .f32⟩
  | .hbm, ⟨6, _⟩ => ⟨S1x512, .f32⟩
  | .hbm, ⟨7, _⟩ => ⟨S1024x512, .f32⟩
  | .hbm, ⟨8, _⟩ => ⟨S1024x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S1024x1x512, .f32⟩
  | .hbm, ⟨17, _⟩ => ⟨S1x512x512, .f32⟩
  | .hbm, ⟨18, _⟩ => ⟨S1024x512x512, .f32⟩
  | .hbm, ⟨19, _⟩ => ⟨S1024x512x512, .f32⟩
  | .hbm, ⟨20, _⟩ => ⟨S1024x512x512, .f32⟩
  | .hbm, ⟨21, _⟩ => ⟨S1024x512x512, .f32⟩
  | .hbm, ⟨22, _⟩ => ⟨S1x512x512, .f32⟩
  | .hbm, ⟨23, _⟩ => ⟨S1024x512x512, .f32⟩
  | .hbm, ⟨24, _⟩ => ⟨S1024x512x512, .f32⟩
  | .hbm, ⟨25, _⟩ => ⟨S_, .f32⟩
  | .hbm, ⟨26, _⟩ => ⟨S1024x512x512, .f32⟩
  | .hbm, ⟨27, _⟩ => ⟨S1024x512x512, .f32⟩
  | .hbm, ⟨28, _⟩ => ⟨S_, .f32⟩
  | .hbm, ⟨29, _⟩ => ⟨S1024x512x512, .f32⟩
  | .hbm, ⟨30, _⟩ => ⟨S1024x512x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S512x512 : S_.BroadcastsInDim S512x512 (![] : Fin 0 → Fin S512x512.rank)
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  bcast_S_S1024x512x512 : S_.BroadcastsInDim S1024x512x512 (![] : Fin 0 → Fin S1024x512x512.rank)
  reducesTo_S1024x512x512_S1024x512_d2 : S1024x512x512.ReducesTo [2] S1024x512
  h_S_ : 0 < S_.numel
  dot_S1024x512_S512x512_S1024x512_1_1_0_0_n_n_wf : DotDims.WF S1024x512 S512x512 S1024x512 [1] [1] [0] [0] [] []

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

class Facts : Prop extends Facts₀ where

variable [Facts]
-- ==== Proof.Consts.lean ====
/-
  The float literals the two programs spell, as the extended reals their bit patterns denote.
  Five words matter to the mathematics: the small positive shift added to the squared inverse
  covariance (only its sign is used: the square root of a non-negative real squares back to it),
  the factor -2 of the cross term, the bf16 one of the all-ones row, and the reference's two
  exponents 1/2 and 2.
-/
import Idealize.ShloMosaic.PureOps.Ideal

noncomputable section

namespace Cert.Consts

open Idealize.ShloMosaic

/-- The shift: 13611295 * 2^(-130), a positive real. -/
def epsR : ℝ := 13611295 * (2 : ℝ) ^ (-130 : Int)

theorem epsR_pos : 0 < epsR := by
  unfold epsR; positivity

theorem ofBits_eps : Ideal.ofBits .f32 0x0A4FB11F#32 = ((epsR : ℝ) : EReal) := by
  simp [Ideal.ofBits, Ideal.ieee, epsR, -EReal.coe_mul]

/-- -2.0 denotes the real -2. -/
theorem ofBits_neg_two : Ideal.ofBits .f32 0xC0000000#32 = ((-2 : ℝ) : EReal) := by
  simp [Ideal.ofBits, Ideal.ieee, -EReal.coe_mul]; norm_num

/-- The bf16 1.0 denotes 1. -/
theorem ofBits_one_bf16 : Ideal.ofBits .bf16 0x3F80#16 = ((1 : ℝ) : EReal) := by
  simp [Ideal.ofBits, Ideal.ieee, -EReal.coe_mul]; norm_num

/-- 0.5 denotes the real 1/2. -/
theorem ofBits_half : Ideal.ofBits .f32 0x3F000000#32 = ((1 / 2 : ℝ) : EReal) := by
  simp [Ideal.ofBits, Ideal.ieee, -EReal.coe_mul]; norm_num

/-- 2.0 denotes the real 2. -/
theorem ofBits_two : Ideal.ofBits .f32 0x40000000#32 = ((2 : ℝ) : EReal) := by
  simp [Ideal.ofBits, Ideal.ieee, -EReal.coe_mul]; norm_num

end Cert.Consts

end
-- ==== Proof.Spec.lean ====
/-
  The result as ONE function of the five argument arrays, index by index, in the two forms the
  two programs compute it, and the law that joins them.

  With x the inputs [1024, 512], w the weights, b the biases, c the centers and s the inverse
  covariances (all [512, 512] but b), and q(o,i) = s(o,i)^2 + eps:

    out(r, o) = (sum_i x(r,i) w(o,i) + b(o)) * exp(-g(r, o)).

  The kernel expands the weighted squared distance into three contractions over i,
    g = sum_i x^2 q  +  sum_i x (-2 c q)  +  sum_i 1 (c (c q)),
  while the reference takes it entry by entry through two real powers,
    g = sum_i (|x - c| q^(1/2) + 0)^2.
  Since q >= 0 its square root squares back to q, |x - c|^2 = (x - c)^2, and the square opens by
  distributivity. Distributivity fails at the infinities of the extended reals, so the law is
  stated for arrays all of whose entries are real numbers.
-/
import Idealize.ShloMosaic.PureOps.Ideal
import Idealize.ShloMosaic.Lib.ValueIdx
import proofs.«427074_j66262755443328_3_alg».proof.Proof.Consts

noncomputable section

open scoped BigOperators

namespace Cert.Spec

open Idealize.ShloMosaic Idealize.ShloMosaic.ValueIdx

/-- An array of n rows of 512 entries: the inputs and the result (n = 1024), or one block of them (n = 512). -/
abbrev SR (n : Nat) : Shape := ⟨2, ![n, 512]⟩
abbrev SW : Shape := ⟨2, ![512, 512]⟩

/-- An array all of whose entries are real numbers. -/
def IsReal {S : Shape} (a : S.Idx → EReal) : Prop := ∀ i, ∃ r : ℝ, a i = (r : EReal)

/-- A finite sum of real numbers, taken in the extended reals, is the real sum. -/
theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The linear part: row r of x against row o of w, plus the bias of column o (the bias given as a function of the column). -/
def lin {n : Nat} (x : (SR n).Idx → EReal) (w : SW.Idx → EReal) (b : Fin 512 → EReal) (r : Fin n) (o : Fin 512) : EReal :=
  (∑ i : Fin 512, x (ix2 r i) * w (ix2 o i)) + b o

/-- The shifted squared inverse covariance q(o,i). -/
def q (s : SW.Idx → EReal) (o i : Fin 512) : EReal :=
  s (ix2 o i) * s (ix2 o i) + ((Cert.Consts.epsR : ℝ) : EReal)

/-- The kernel's exponent: three contractions over i. -/
def gK {n : Nat} (x : (SR n).Idx → EReal) (c s : SW.Idx → EReal) (r : Fin n) (o : Fin 512) : EReal :=
  ((∑ i : Fin 512, (x (ix2 r i) * x (ix2 r i)) * q s o i)
    + ∑ i : Fin 512, x (ix2 r i) * (((-2 : ℝ) : EReal) * (c (ix2 o i) * q s o i)))
  + ∑ i : Fin 512, ((1 : ℝ) : EReal) * (c (ix2 o i) * (c (ix2 o i) * q s o i))

/-- The reference's exponent: entry by entry through the real powers 1/2 and 2. -/
def gR {n : Nat} (x : (SR n).Idx → EReal) (c s : SW.Idx → EReal) (r : Fin n) (o : Fin 512) : EReal :=
  ∑ i : Fin 512, Ideal.pow
    (max (x (ix2 r i) - c (ix2 o i)) (-(x (ix2 r i) - c (ix2 o i))) * Ideal.pow (q s o i) (((1 / 2 : ℝ)) : EReal) + 0)
    ((2 : ℝ) : EReal)

/-- The kernel's result. -/
def outK {n : Nat} (x : (SR n).Idx → EReal) (w : SW.Idx → EReal) (b : Fin 512 → EReal) (c s : SW.Idx → EReal) : (SR n).Idx → EReal :=
  fun j => lin x w b (j 0) (j 1) * Ideal.exp (0 - gK x c s (j 0) (j 1))

/-- The reference's result. -/
def outR {n : Nat} (x : (SR n).Idx → EReal) (w : SW.Idx → EReal) (b : Fin 512 → EReal) (c s : SW.Idx → EReal) : (SR n).Idx → EReal :=
  fun j => lin x w b (j 0) (j 1) * Ideal.exp (-(0 + gR x c s (j 0) (j 1)))

/-- The model's power of two real numbers is the real power. -/
theorem pow_coe (a b : ℝ) : Ideal.pow (a : EReal) (b : EReal) = ((Real.rpow a b : ℝ) : EReal) := rfl

/-- One entry's weighted squared distance, over the reals: the square of |x - c| sqrt(q) opened. -/
theorem term_real (x c s e : ℝ) (he : 0 ≤ e) :
    Real.rpow (|x - c| * Real.rpow (s * s + e) (1 / 2) + 0) 2
      = x * x * (s * s + e) + x * (-2 * (c * (s * s + e))) + 1 * (c * (c * (s * s + e))) := by
  have hq : 0 ≤ s * s + e := add_nonneg (mul_self_nonneg s) he
  simp only [Real.rpow_eq_pow, add_zero]
  rw [Real.rpow_two, mul_pow, sq_abs, ← Real.sqrt_eq_rpow, Real.sq_sqrt hq]
  ring

/-- The two exponents agree on real arrays. -/
theorem gK_eq_gR {n : Nat} (x : (SR n).Idx → EReal) (c s : SW.Idx → EReal) (hx : IsReal x) (hc : IsReal c) (hs : IsReal s)
    (r : Fin n) (o : Fin 512) : gK x c s r o = gR x c s r o := by
  choose xr hxr using hx
  choose cr hcr using hc
  choose sr hsr using hs
  have e := Cert.Consts.epsR_pos.le
  have hq : ∀ i : Fin 512, q s o i
      = ((sr (ix2 o i) * sr (ix2 o i) + Cert.Consts.epsR : ℝ) : EReal) := fun i => by
    unfold q; rw [hsr, ← EReal.coe_mul, ← EReal.coe_add]
  unfold gK gR
  simp only [hxr, hcr, hq]
  have hR : ∀ i : Fin 512,
      Ideal.pow (max ((xr (ix2 r i) : EReal) - (cr (ix2 o i) : EReal)) (-((xr (ix2 r i) : EReal) - (cr (ix2 o i) : EReal)))
          * Ideal.pow ((sr (ix2 o i) * sr (ix2 o i) + Cert.Consts.epsR : ℝ) : EReal) (((1 / 2 : ℝ)) : EReal) + 0)
        ((2 : ℝ) : EReal)
      = ((Real.rpow (|xr (ix2 r i) - cr (ix2 o i)| * Real.rpow (sr (ix2 o i) * sr (ix2 o i) + Cert.Consts.epsR) (1 / 2) + 0) 2 : ℝ) : EReal) := fun i => by
    rw [← EReal.coe_sub, ← EReal.coe_neg, ← EReal.coe_strictMono.monotone.map_max, ← abs_eq_max_neg, pow_coe,
      ← EReal.coe_mul, ← EReal.coe_zero, ← EReal.coe_add, pow_coe]
  simp only [hR, ← EReal.coe_mul, coe_sum, ← EReal.coe_add]
  rw [← Finset.sum_add_distrib, ← Finset.sum_add_distrib]
  exact congrArg _ (Finset.sum_congr rfl fun i _ => (term_real _ _ _ _ e).symm)

/-- The two results agree on real arrays. -/
theorem outK_eq_outR {n : Nat} (x : (SR n).Idx → EReal) (w : SW.Idx → EReal) (b : Fin 512 → EReal) (c s : SW.Idx → EReal)
    (hx : IsReal x) (hc : IsReal c) (hs : IsReal s) : outK x w b c s = outR x w b c s := by
  funext j
  have h := gK_eq_gR x c s hx hc hs (j 0) (j 1)
  show lin x w b (j 0) (j 1) * Ideal.exp (0 - gK x c s (j 0) (j 1))
    = lin x w b (j 0) (j 1) * Ideal.exp (-(0 + gR x c s (j 0) (j 1)))
  rw [h, zero_sub, zero_add]

/-- The kernel's result at (r, o) reads x only along row r, and w, c, s only along row o, and the bias only at o:
    arrays (of any numbers of rows of x) that agree there give the same result there. -/
theorem outK_congr {n n' : Nat} (x : (SR n).Idx → EReal) (x' : (SR n').Idx → EReal) (w w' : SW.Idx → EReal)
    (b b' : Fin 512 → EReal) (c c' s s' : SW.Idx → EReal) (r : Fin n) (r' : Fin n') (o : Fin 512)
    (hx : ∀ i : Fin 512, x (ix2 r i) = x' (ix2 r' i)) (hw : ∀ i : Fin 512, w (ix2 o i) = w' (ix2 o i))
    (hb : b o = b' o) (hc : ∀ i : Fin 512, c (ix2 o i) = c' (ix2 o i)) (hs : ∀ i : Fin 512, s (ix2 o i) = s' (ix2 o i)) :
    outK x w b c s (ix2 r o) = outK x' w' b' c' s' (ix2 r' o) := by
  show lin x w b r o * Ideal.exp (0 - gK x c s r o) = lin x' w' b' r' o * Ideal.exp (0 - gK x' c' s' r' o)
  unfold lin gK q
  simp only [hx, hw, hb, hc, hs]

end Cert.Spec

end
-- ==== Proof.Finite.lean ====
/-
  What the precondition gives: every entry of every argument array is a real number.

  The printed predicate is the conjunction, over the five arrays, of "every |a(i)| is below +inf".
  An extended real whose absolute value max(a, -a) is below +inf is neither infinity, hence real.
-/
import proofs.«427074_j66262755443328_3_alg».proof.Proof.Gen.Pre_finite_inputs
import proofs.«427074_j66262755443328_3_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The pattern with all exponent bits set and no fraction denotes +inf. -/
theorem ofBits_inf : Ideal.ofBits .f32 0x7F800000#32 = (⊤ : EReal) := by
  simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |a(i)| < +inf, when it answers 1, makes a(i) real. -/
theorem real_of_cmp (x : EReal)
    (h : Ideal.cmp .olt (max x (-x)) (Ideal.ofBits .f32 0x7F800000#32) = 1#1) :
    ∃ r : ℝ, x = (r : EReal) := by
  apply real_of_abs_lt_top
  rw [ofBits_inf] at h
  by_contra hn
  have h' : Ideal.cmp .olt (max x (-x)) (⊤ : EReal) = 0#1 := by
    show BitVec.ofBool (decide (max x (-x) < ⊤)) = 0#1
    rw [decide_eq_false hn]; rfl
  rw [h'] at h
  exact absurd h (by decide)

variable [Cert.Pre_finite_inputs.Facts]

/-- The precondition makes all five argument arrays real. -/
theorem reals_of_pre (a0 : FVec Ideal S1024x512 .f32) (a1 : FVec Ideal S512x512 .f32) (a2 : FVec Ideal S512 .f32)
    (a3 a4 : FVec Ideal S512x512 .f32)
    (h : Cert.Pre_finite_inputs.fn (F := Ideal) a0 a1 a2 a3 a4 = fun _ => 1#1) :
    Cert.Spec.IsReal a0 ∧ Cert.Spec.IsReal a1 ∧ Cert.Spec.IsReal a2 ∧ Cert.Spec.IsReal a3 ∧ Cert.Spec.IsReal a4 := by
  have h0 := congrFun h ix0
  dsimp only [fn, fn_part1] at h0
  have split : ∀ a b : IVec S_ 1, andi a b ix0 = 1#1 → a ix0 = 1#1 ∧ b ix0 = 1#1 :=
    fun a b e => IntOp.andi_eq_one.1 e
  obtain ⟨h0123, e4⟩ := split _ _ h0
  obtain ⟨h012, e3⟩ := split _ _ h0123
  obtain ⟨h01, e2⟩ := split _ _ h012
  obtain ⟨e0, e1⟩ := split _ _ h01
  exact ⟨fun i => real_of_cmp (a0 i) (Host.reduce_andi_all _ _ _ _ ix0 e0 i),
    fun i => real_of_cmp (a1 i) (Host.reduce_andi_all _ _ _ _ ix0 e1 i),
    fun i => real_of_cmp (a2 i) (Host.reduce_andi_all _ _ _ _ ix0 e2 i),
    fun i => real_of_cmp (a3 i) (Host.reduce_andi_all _ _ _ _ ix0 e3 i),
    fun i => real_of_cmp (a4 i) (Host.reduce_andi_all _ _ _ _ ix0 e4 i)⟩

end Cert.Finite

end
-- ==== Proof.RefValue.lean ====
/-
  The reference's result, read index by index, is the specification's reference form:
  at (r, o) the linear part sum_i x(r,i) w(o,i) + b(o), times the exponential of minus the
  sum over i of (|x(r,i) - c(o,i)| q(o,i)^(1/2) + 0)^2. The broadcasts through [1024, 1, 512],
  [1, 512, 512] and [1024, 512, 512] only re-index: entry (r, o, i) of each broadcast reads
  x at (r, i), and c and q at (o, i).
-/
import proofs.«427074_j66262755443328_3_alg».proof.Proof.Gen.ReferenceIdeal.Read
import proofs.«427074_j66262755443328_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem result_eq (x0 : FVec Ideal S1024x512 .f32) (x1 : FVec Ideal S512x512 .f32) (x2 : FVec Ideal S512 .f32)
    (x3 x4 : FVec Ideal S512x512 .f32) :
    val_main_v25 (F := Ideal) x0 x1 x2 x3 x4 = Cert.Spec.outR (n := 1024) x0 x1 (fun o => x2 (ix1 o)) x3 x4 := by
  funext j
  obtain ⟨r, o, rfl⟩ : ∃ (r : Fin 1024) (o : Fin 512), j = ix2 r o := ⟨j 0, j 1, eq_ix2 j⟩
  have eL : ∀ k : Fin 512, lidx_main_v0 (ix2 r o) k = ix2 r k := fun k =>
    funext fun a => Fin.ext (by match a with | ⟨0, _⟩ => rfl | ⟨1, _⟩ => rfl)
  have eR : ∀ k : Fin 512, ridx_main_v0 (ix2 r o) k = ix2 o k := fun k =>
    funext fun a => Fin.ext (by match a with | ⟨0, _⟩ => rfl | ⟨1, _⟩ => rfl)
  have eB : idx_main_v1 (idx_main_v2 (ix2 r o)) = ix1 o :=
    funext fun a => Fin.ext (by match a with | ⟨0, _⟩ => rfl)
  have eX : ∀ k : Fin 512, idx_main_v9 (idx_main_v11 (idx_main_v22 (ix2 r o) k)) = ix2 r k := fun k =>
    funext fun a => Fin.ext (by match a with | ⟨0, _⟩ => rfl | ⟨1, _⟩ => rfl)
  have eC : ∀ k : Fin 512, idx_main_v10 (idx_main_v12 (idx_main_v22 (ix2 r o) k)) = ix2 o k := fun k =>
    funext fun a => Fin.ext (by match a with | ⟨0, _⟩ => rfl | ⟨1, _⟩ => rfl)
  have eS : ∀ k : Fin 512, idx_main_v15 (idx_main_v16 (idx_main_v22 (ix2 r o) k)) = ix2 o k := fun k =>
    funext fun a => Fin.ext (by match a with | ⟨0, _⟩ => rfl | ⟨1, _⟩ => rfl)
  rw [val_main_v25_apply, val_main_v3_apply, val_main_v0_apply, val_main_v2_apply, val_main_v1_apply,
    val_main_v24_apply, val_main_v23_apply, val_main_v22_apply]
  simp only [val_main_v21_apply, val_main_v19_apply, val_main_v17_apply, val_main_v14_apply, val_main_v13_apply,
    val_main_v11_apply, val_main_v9_apply, val_main_v12_apply, val_main_v10_apply, val_main_v16_apply,
    val_main_v15_apply, val_main_v8_apply, val_main_v6_apply, val_main_v4_apply, val_main_v5_apply,
    val_main_cst_apply, val_main_v7_apply, val_main_cst_0_apply, val_main_v18_apply, val_main_cst_1_apply,
    val_main_v20_apply, val_main_cst_2_apply, val_main_cst_3_apply,
    eL, eR, eB, eX, eC, eS,
    Ideal.addf_def, Ideal.mulf_def, Ideal.subf_def, Ideal.hostNegf_def, Ideal.negf_def, Ideal.hostAbsf_def,
    Ideal.hostPowf_def, Ideal.hostUnary_exp_def, Ideal.ofBits_def,
    Cert.Consts.ofBits_eps, Cert.Consts.ofBits_half, Cert.Consts.ofBits_two, Ideal.ofBits_zero_f32]
  rfl

end Cert.ReferenceIdeal.RefValue

end
-- ==== Proof.KernelPayload.lean ====
/-
  The kernel body's one stored value, read at an index (p, o) of its [512, 512] block, as a
  function of the five loaded blocks: the block of inputs x (rows p), the whole weights w,
  the bias row b, the whole centers c and inverse covariances s.

  Three products on the matrix unit, each a plain sum at exact arithmetic:
    x w^T at (p, o)                       = sum_i x(p,i) w(o,i);
    [x^2 | x] [q | -2 c q]^T at (p, o)    = sum over the 1024 joined columns, which splits at
                                            column 512 into sum_i x^2 q + sum_i x (-2 c q);
    [1 ... 1] (c (c q))^T at (0, o)       = sum_i 1 (c (c q))(o,i).
  The bias row and the third product are rows [1, 512] spread over the 512 rows of the block.
  Format changes to and from bf16 are the identity on exact values.
-/
import proofs.«427074_j66262755443328_3_alg».proof.Proof.Gen.KernelIdeal.Skeleton
import proofs.«427074_j66262755443328_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The three contractions, each over its one contracted axis -/

theorem lhs_a_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_a_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_a_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_a_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Rows of the first operand against rows of the second, 512 columns. -/
theorem rows_dot_rows (a b : FVec Ideal S512x512 .bf16) (i : S512x512.Idx) :
    matmul dot_S512x512_S512x512_S512x512_1_1_0_0_n_n none a b (constant S512x512 .f32 0x00000000#32) i
      = ∑ k : Fin 512, a (ix2 (i 0) k) * b (ix2 (i 1) k) := by
  show FloatOps.matmul dot_S512x512_S512x512_S512x512_1_1_0_0_n_n none a b (constant S512x512 .f32 0x00000000#32) i = _
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx i ((contrEquiv1 dot_S512x512_S512x512_S512x512_1_1_0_0_n_n 512 rfl rfl).symm k) = ix2 (i 0) k := funext fun a => Fin.ext (by
    match a with
    | ⟨0, _⟩ => exact lhs_a_0 _ _
    | ⟨1, _⟩ => exact (lhs_a_1 _ _).trans hk)
  have er : dot_S512x512_S512x512_S512x512_1_1_0_0_n_n.rhsIdx i ((contrEquiv1 dot_S512x512_S512x512_S512x512_1_1_0_0_n_n 512 rfl rfl).symm k) = ix2 (i 1) k := funext fun a => Fin.ext (by
    match a with
    | ⟨0, _⟩ => exact rhs_a_0 _ _
    | ⟨1, _⟩ => exact (rhs_a_1 _ _).trans hk)
  rw [el, er]
  rfl

theorem lhs_b_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_b_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_b_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_b_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The same over the 1024 joined columns. -/
theorem wide_rows_dot_rows (a b : FVec Ideal S512x1024 .bf16) (i : S512x512.Idx) :
    matmul dot_S512x1024_S512x1024_S512x512_1_1_0_0_n_n none a b (constant S512x512 .f32 0x00000000#32) i
      = ∑ k : Fin 1024, a (ix2 (i 0) k) * b (ix2 (i 1) k) := by
  show FloatOps.matmul dot_S512x1024_S512x1024_S512x512_1_1_0_0_n_n none a b (constant S512x512 .f32 0x00000000#32) i = _
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx i ((contrEquiv1 dot_S512x1024_S512x1024_S512x512_1_1_0_0_n_n 1024 rfl rfl).symm k) = ix2 (i 0) k := funext fun a => Fin.ext (by
    match a with
    | ⟨0, _⟩ => exact lhs_b_0 _ _
    | ⟨1, _⟩ => exact (lhs_b_1 _ _).trans hk)
  have er : dot_S512x1024_S512x1024_S512x512_1_1_0_0_n_n.rhsIdx i ((contrEquiv1 dot_S512x1024_S512x1024_S512x512_1_1_0_0_n_n 1024 rfl rfl).symm k) = ix2 (i 1) k := funext fun a => Fin.ext (by
    match a with
    | ⟨0, _⟩ => exact rhs_b_0 _ _
    | ⟨1, _⟩ => exact (rhs_b_1 _ _).trans hk)
  rw [el, er]
  rfl

theorem lhs_c_0 (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
theorem lhs_c_1 (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
theorem rhs_c_0 (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
theorem rhs_c_1 (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

/-- One row against the rows of the second operand. -/
theorem row_dot_rows (a : FVec Ideal S1x512 .bf16) (b : FVec Ideal S512x512 .bf16) (i : S1x512.Idx) :
    matmul dot_S1x512_S512x512_S1x512_1_1_0_0_n_n none a b (constant S1x512 .f32 0x00000000#32) i
      = ∑ k : Fin 512, a (ix2 (i 0) k) * b (ix2 (i 1) k) := by
  show FloatOps.matmul dot_S1x512_S512x512_S1x512_1_1_0_0_n_n none a b (constant S1x512 .f32 0x00000000#32) i = _
  rw [Ideal.matmul_constant_zero_apply, ← Equiv.sum_comp (contrEquiv1 dot_S1x512_S512x512_S1x512_1_1_0_0_n_n 512 rfl rfl).symm]
  refine Finset.sum_congr rfl fun k _ => ?_
  have hk := contrEquiv1_symm_val dot_S1x512_S512x512_S1x512_1_1_0_0_n_n 512 rfl rfl k
  have el : dot_S1x512_S512x512_S1x512_1_1_0_0_n_n.lhsIdx i ((contrEquiv1 dot_S1x512_S512x512_S1x512_1_1_0_0_n_n 512 rfl rfl).symm k) = ix2 (i 0) k := funext fun a => Fin.ext (by
    match a with
    | ⟨0, _⟩ => exact lhs_c_0 _ _
    | ⟨1, _⟩ => exact (lhs_c_1 _ _).trans hk)
  have er : dot_S1x512_S512x512_S1x512_1_1_0_0_n_n.rhsIdx i ((contrEquiv1 dot_S1x512_S512x512_S1x512_1_1_0_0_n_n 512 rfl rfl).symm k) = ix2 (i 1) k := funext fun a => Fin.ext (by
    match a with
    | ⟨0, _⟩ => exact rhs_c_0 _ _
    | ⟨1, _⟩ => exact (rhs_c_1 _ _).trans hk)
  rw [el, er]
  rfl

/-! ## Layout pieces -/

/-- A [1, 512] row spread over 512 rows reads the row at the column. -/
theorem spread_row {α : Type} (v : S1x512.Idx → α) (p o : Fin 512) :
    broadcastTo S512x512 v broadcasts_S1x512_S512x512 (ix2 p o) = v (ix2 (0 : Fin 1) o) :=
  broadcastTo_apply v broadcasts_S1x512_S512x512 (ix2 p o) (ix2 (0 : Fin 1) o) (fun a => by
    match a with
    | ⟨0, _⟩ => show 0 = if (1 : Nat) = 1 then 0 else _; rw [if_pos rfl]
    | ⟨1, _⟩ => show o.val = if (512 : Nat) = 1 then 0 else o.val; rw [if_neg (by decide)])

/-- Two [512, 512] pieces joined along the columns: column k < 512 reads the first piece. -/
theorem join_left {α : Type} (a b : S512x512.Idx → α) (p : Fin 512) (k : Fin 512) :
    concatenate S512x1024 1 [⟨S512x512, a⟩, ⟨S512x512, b⟩] concatenates_S512x512_S512x512_S512x1024_d1
      (ix2 p (Fin.castAdd 512 k)) = a (ix2 p k) :=
  concatenate_pair_apply_left 1 a b concatenates_S512x512_S512x512_S512x1024_d1 _ rfl (ix2 p k) (fun c => by
    match c with
    | ⟨0, _⟩ => rfl
    | ⟨1, _⟩ => rfl)

/-- Column 512 + k reads the second piece at column k. -/
theorem join_right {α : Type} (a b : S512x512.Idx → α) (p : Fin 512) (k : Fin 512) :
    concatenate S512x1024 1 [⟨S512x512, a⟩, ⟨S512x512, b⟩] concatenates_S512x512_S512x512_S512x1024_d1
      (ix2 p (Fin.natAdd 512 k)) = b (ix2 p k) :=
  concatenate_pair_apply_right 1 a b concatenates_S512x512_S512x512_S512x1024_d1 _ rfl rfl (ix2 p k) (fun c hc => by
    match c with
    | ⟨0, _⟩ => rfl
    | ⟨1, _⟩ => exact absurd rfl hc) (by show k.val + 512 = 512 + k.val; omega)

/-- The product over the 1024 joined columns splits at column 512 into the two products of the pieces. -/
theorem joined_sum (a b c d : S512x512.Idx → EReal) (p o : Fin 512) :
    (∑ k : Fin 1024,
        concatenate S512x1024 1 [⟨S512x512, a⟩, ⟨S512x512, b⟩] concatenates_S512x512_S512x512_S512x1024_d1 (ix2 p k)
        * concatenate S512x1024 1 [⟨S512x512, c⟩, ⟨S512x512, d⟩] concatenates_S512x512_S512x512_S512x1024_d1 (ix2 o k))
      = (∑ i : Fin 512, a (ix2 p i) * c (ix2 o i)) + ∑ i : Fin 512, b (ix2 p i) * d (ix2 o i) := by
  refine (Fin.sum_univ_add (a := 512) (b := 512) (fun k : Fin (512 + 512) =>
    concatenate S512x1024 1 [⟨S512x512, a⟩, ⟨S512x512, b⟩] concatenates_S512x512_S512x512_S512x1024_d1 (ix2 p k)
      * concatenate S512x1024 1 [⟨S512x512, c⟩, ⟨S512x512, d⟩] concatenates_S512x512_S512x512_S512x1024_d1 (ix2 o k))).trans ?_
  simp only [join_left, join_right]

/-! ## The same at explicit coordinates -/

theorem rows_dot_rows_at (a b : FVec Ideal S512x512 .bf16) (p o : Fin 512) :
    matmul dot_S512x512_S512x512_S512x512_1_1_0_0_n_n none a b (constant S512x512 .f32 0x00000000#32) (ix2 p o)
      = ∑ k : Fin 512, a (ix2 p k) * b (ix2 o k) := rows_dot_rows a b (ix2 p o)

theorem wide_rows_dot_rows_at (a b : FVec Ideal S512x1024 .bf16) (p o : Fin 512) :
    matmul dot_S512x1024_S512x1024_S512x512_1_1_0_0_n_n none a b (constant S512x512 .f32 0x00000000#32) (ix2 p o)
      = ∑ k : Fin 1024, a (ix2 p k) * b (ix2 o k) := wide_rows_dot_rows a b (ix2 p o)

theorem row_dot_rows_at (a : FVec Ideal S1x512 .bf16) (b : FVec Ideal S512x512 .bf16) (o : Fin 512) :
    matmul dot_S1x512_S512x512_S1x512_1_1_0_0_n_n none a b (constant S1x512 .f32 0x00000000#32) (ix2 (0 : Fin 1) o)
      = ∑ k : Fin 512, a (ix2 (0 : Fin 1) k) * b (ix2 o k) := row_dot_rows a b (ix2 (0 : Fin 1) o)

/-- The exponential of a vector, at an index. -/
theorem exp_at {s : Shape} {φ : FTy} (a : FVec Ideal s φ) (i : s.Idx) : exp a i = Ideal.exp (a i) := rfl

/-! ## The stored value -/

/-- The body's stored block is the specification's kernel form of the loaded blocks, the bias read off its one row. -/
theorem pay_eq (x0 x1 : Vec Ideal S512x512 .f32) (x2 : Vec Ideal S1x512 .f32) (x3 x4 : Vec Ideal S512x512 .f32) :
    k0_pay1 (F := Ideal) x0 x1 x2 x3 x4
      = Cert.Spec.outK (n := 512) x0 x1 (fun o => x2 (ix2 (0 : Fin 1) o)) x3 x4 := by
  funext j
  obtain ⟨p, o, rfl⟩ : ∃ (p o : Fin 512), j = ix2 p o := ⟨j 0, j 1, eq_ix2 j⟩
  unfold k0_pay1
  simp only [mulf_apply, addf_apply, subf_apply, exp_at, rows_dot_rows_at, wide_rows_dot_rows_at, row_dot_rows_at,
    spread_row, shapeCast_self, joined_sum, truncf_apply, broadcast_apply, Ideal.ofBits_def,
    Ideal.ofBits_zero_f32, Cert.Consts.ofBits_eps, Cert.Consts.ofBits_neg_two, Cert.Consts.ofBits_one_bf16]
  rfl

end Cert.KernelIdeal.Payload

end
-- ==== Proof.KernelValue.lean ====
/-
  From blocks to the array. The grid has two points; point t stages rows 512 t .. 512 t + 511 of
  the inputs and writes the same rows of the result, while the weights, the bias row, the centers
  and the inverse covariances are staged whole (block index 0) at both points. So what point t
  writes back is block t of ONE function of the argument arrays, the specification's kernel form:
  entry (p, o) of the block depends on row 512 t + p of the inputs only. The two blocks tile the
  [1024, 512] result, so the array ends holding that function everywhere.

  The bias reaches the kernel as a [1, 512] row that the program makes from the [512] argument by
  a reshape; entry (0, o) of the row is entry o of the argument.
-/
import proofs.«427074_j66262755443328_3_alg».proof.Proof.Gen.KernelIdeal.Value
import proofs.«427074_j66262755443328_3_alg».proof.Proof.KernelPayload
import proofs.«427074_j66262755443328_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, at their literal types -/

abbrev xA (c : Dev nD) : Vec Ideal S1024x512 .f32 := V m c main_arg0
abbrev wA (c : Dev nD) : Vec Ideal S512x512 .f32 := V m c main_arg1
abbrev bRow (c : Dev nD) : Vec Ideal S1x512 .f32 := V m c main_v0
abbrev cA (c : Dev nD) : Vec Ideal S512x512 .f32 := V m c main_arg3
abbrev sA (c : Dev nD) : Vec Ideal S512x512 .f32 := V m c main_arg4

/-- The result array as one function of those arrays. -/
def G (c : Dev nD) : Vec Ideal S1024x512 .f32 :=
  Cert.Spec.outK (n := 1024) (xA m c) (wA m c) (fun o => bRow m c (ix2 (0 : Fin 1) o)) (cA m c) (sA m c)

/-! ## The index maps over the two grid points -/

/-- The inputs' block moves with the result's along the rows; every other block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 1 :=
  (by decide +kernel : ∀ t : Fin grid0.N, _)

/-- Each of the two row blocks of the result is some point's. -/
theorem idx_onto : ∀ q0 : Fin 2, ∃ t : Fin cfg0.N, win0_5.index t = ![q0.val, 0] :=
  (by decide +kernel : ∀ q0 : Fin 2, ∃ t : Fin grid0.N, win0_5.index t = ![q0.val, 0])

/-! ## What a point writes back -/

/-- Point t writes back block t of G. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz]
  simp only [View.ld_unit_zero (S := S512x512) hz, View.ld_unit_zero (S := S1x512) hz]
  rw [Cert.KernelIdeal.Payload.pay_eq]
  obtain ⟨e00, e01, e10, e11, e20, e21, e30, e31, e40, e41, e51, e50⟩ := idx_facts t
  funext j
  obtain ⟨p, o, rfl⟩ : ∃ (p o : Fin 512), j = (ix2 p o : S512x512.Idx) := ⟨j 0, j 1, eq_ix2 j⟩
  have hR : win0_5.index t (0 : Fin 2) * 512 + p.val < 1024 := by have := p.isLt; omega
  have h5 : ((cfg0.win 5).blk t).view.emb (ix2 p o : S512x512.Idx)
      = (ix2 (⟨win0_5.index t (0 : Fin 2) * 512 + p.val, hR⟩ : Fin 1024) o : S1024x512.Idx) := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 512 + 1 * o.val = o.val; omega
  have h0 : ∀ i : Fin 512, ((cfg0.win 0).blk t).view.emb (ix2 p i : S512x512.Idx)
      = (ix2 (⟨win0_5.index t (0 : Fin 2) * 512 + p.val, hR⟩ : Fin 1024) i : S1024x512.Idx) := fun i => by
    funext a; apply Fin.ext
    match a with
    | ⟨0, _⟩ => show win0_0.index t (0 : Fin 2) * 512 + 1 * p.val = win0_5.index t (0 : Fin 2) * 512 + p.val; omega
    | ⟨1, _⟩ => show win0_0.index t (1 : Fin 2) * 512 + 1 * i.val = i.val; omega
  have h1 : ∀ y : S512x512.Idx, ((cfg0.win 1).blk t).view.emb y = y := fun y => by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  have h2 : ∀ o' : Fin 512, ((cfg0.win 2).blk t).view.emb (ix2 (0 : Fin 1) o' : S1x512.Idx)
      = (ix2 (0 : Fin 1) o' : S1x512.Idx) := fun o' => by
    funext a; apply Fin.ext
    match a with
    | ⟨0, _⟩ => show win0_2.index t (0 : Fin 2) * 1 + 1 * 0 = 0; omega
    | ⟨1, _⟩ => show win0_2.index t (1 : Fin 2) * 512 + 1 * o'.val = o'.val; omega
  have h3 : ∀ y : S512x512.Idx, ((cfg0.win 3).blk t).view.emb y = y := fun y => by
    funext a; apply Fin.ext
    match a with
    | ⟨0, _⟩ => show win0_3.index t (0 : Fin 2) * 512 + 1 * (y 0).val = (y 0).val; omega
    | ⟨1, _⟩ => show win0_3.index t (1 : Fin 2) * 512 + 1 * (y 1).val = (y 1).val; omega
  have h4 : ∀ y : S512x512.Idx, ((cfg0.win 4).blk t).view.emb y = y := fun y => by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  show Cert.Spec.outK (n := 512) (fun y => xA m c (((cfg0.win 0).blk t).view.emb y))
      (fun y => wA m c (((cfg0.win 1).blk t).view.emb y))
      (fun o' => bRow m c (((cfg0.win 2).blk t).view.emb (ix2 (0 : Fin 1) o')))
      (fun y => cA m c (((cfg0.win 3).blk t).view.emb y))
      (fun y => sA m c (((cfg0.win 4).blk t).view.emb y)) (ix2 p o)
    = G m c (((cfg0.win 5).blk t).view.emb (ix2 p o))
  rw [h5]
  exact Cert.Spec.outK_congr _ _ _ _ _ _ _ _ _ _ p ⟨_, hR⟩ o (fun i => congrArg (xA m c) (h0 i))
    (fun i => congrArg (wA m c) (h1 _)) (congrArg (bRow m c) (h2 o)) (fun i => congrArg (cA m c) (h3 _))
    (fun i => congrArg (sA m c) (h4 _))

/-! ## The two blocks tile the result -/

/-- An index of the result is in point t's block iff each coordinate is in the block's range on its axis. -/
theorem mem_blk (t : Fin cfg0.N) (i : S1024x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v1).slice (win0_5.rect t)).set ↔ _
  rw [View.set_slice_whole, Rect.mem_set_unit]
  exact Iff.rfl

/-- Row r of the result lies in the block of the point whose block index is r / 512. -/
theorem cover (i : S1024x512.Idx) :
    ∃ t : Fin cfg0.N, (cfg0.win 5).flush t = true ∧ i ∈ ((cfg0.win 5).blk t).view.set := by
  have hi0 : (i 0).val < 1024 := (i 0).isLt
  have hi1 : (i 1).val < 512 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The result array after the run is G. -/
theorem final (c : Dev nD) : (dats m 0 c).arrAt 5 cfg0.N = G m c :=
  (dats m 0 c).arrAt_eq_of_cover 5 (G m c) (fun t _ => flushed_eq m c t) cover

/-! ## Back to the arguments as launched -/

/-- The bias row at (0, o) is the bias argument at o: the row is the argument reshaped. -/
theorem bRow_eq (c : Dev nD) (o : Fin 512) :
    bRow m c (ix2 (0 : Fin 1) o) = (m ((c : Thread nD τ).loc main_arg2) : S512.Idx → EReal) (ix1 o) := by
  have e : (V m c main_v0 : S1x512.Idx → EReal)
      = shapeCast S1x512 (m ((c : Thread nD τ).loc main_arg2) : S512.Idx → EReal) shapeCasts_S512_S1x512 := by
    dsimp only [Gen.V, Gen.hostOps0]; after_results; rfl
  show (V m c main_v0 : S1x512.Idx → EReal) (ix2 (0 : Fin 1) o) = _
  rw [e]
  exact shapeCast_apply _ _ _ _ (by
    show (S512.rowMajor (ix1 o)).val = (S1x512.rowMajor (ix2 (0 : Fin 1) o)).val
    rw [Shape.rowMajor_val_one, Shape.rowMajor_val_two]; show o.val = 0 * 512 + o.val; omega)

/-- G in terms of the argument arrays as launched. -/
theorem G_eq (c : Dev nD) :
    G m c = Cert.Spec.outK (n := 1024) (m ((c : Thread nD τ).loc main_arg0) : S1024x512.Idx → EReal)
      (m ((c : Thread nD τ).loc main_arg1) : S512x512.Idx → EReal)
      (fun o => (m ((c : Thread nD τ).loc main_arg2) : S512.Idx → EReal) (ix1 o))
      (m ((c : Thread nD τ).loc main_arg3) : S512x512.Idx → EReal)
      (m ((c : Thread nD τ).loc main_arg4) : S512x512.Idx → EReal) := by
  have e0 : xA m c = m ((c : Thread nD τ).loc main_arg0) := V_main_arg0 m c
  have e1 : wA m c = m ((c : Thread nD τ).loc main_arg1) := V_main_arg1 m c
  have e2 : (fun o => bRow m c (ix2 (0 : Fin 1) o))
      = fun o => (m ((c : Thread nD τ).loc main_arg2) : S512.Idx → EReal) (ix1 o) := funext (bRow_eq m c)
  have e3 : cA m c = m ((c : Thread nD τ).loc main_arg3) := V_main_arg3 m c
  have e4 : sA m c = m ((c : Thread nD τ).loc main_arg4) := V_main_arg4 m c
  unfold G
  rw [e0, e1, e2, e3, e4]

/-- The kernel's run: the result array ends at the specification's kernel form of the arguments, the arguments unchanged. -/
theorem run : θ_run defs (onTc (τ := τ) (main (F := Ideal))) ⟨m, fun _ => 0, ρ⟩ fun r => ∀ c : Dev nD,
      r.2.mem ((c : Thread nD τ).loc main_v1)
        = Cert.Spec.outK (n := 1024) (m ((c : Thread nD τ).loc main_arg0) : S1024x512.Idx → EReal)
          (m ((c : Thread nD τ).loc main_arg1) : S512x512.Idx → EReal)
          (fun o => (m ((c : Thread nD τ).loc main_arg2) : S512.Idx → EReal) (ix1 o))
          (m ((c : Thread nD τ).loc main_arg3) : S512x512.Idx → EReal)
          (m ((c : Thread nD τ).loc main_arg4) : S512x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩)
    (Value.run_blocks m ρ)

end Cert.KernelIdeal.ArrayValue

end
-- ==== Proof.lean ====
/-
  A radial-basis linear layer: out(r, o) = (sum_i x(r,i) w(o,i) + b(o)) * exp(-g(r, o)), with
  g(r, o) the squared distance of input row r from center row o, each coordinate weighted by
  q(o,i) = s(o,i)^2 + eps (s the inverse covariances, eps a small positive shift).

  The kernel expands g into three contractions over i,
      sum_i x^2 q  -  2 sum_i x c q  +  sum_i c^2 q,
  the first two done as ONE product over 1024 joined columns ([x^2 | x] against [q | -2 c q]), the
  third as an all-ones row against c (c q). The reference computes g entry by entry as
      sum_i (|x - c| * q^(1/2) + 0)^2
  through two real powers. Over real numbers these agree: q >= 0, so its square root squares back
  to q, |x - c|^2 = (x - c)^2, and the square opens by distributivity. Distributivity needs the
  entries to be real (it fails at the infinities of the extended reals), which is exactly what the
  precondition gives. The linear part and the exponential are the same on both sides.

  The pieces: Proof/Spec.lean (both forms of the result and the law between them), Proof/Finite.lean
  (the precondition makes every entry real), Proof/RefValue.lean (the reference computes the
  reference form), Proof/KernelPayload.lean and Proof/KernelValue.lean (the kernel's two blocks are
  the blocks of the kernel form, and they tile the result).
-/
import proofs.«427074_j66262755443328_3_alg».proof.Defs
import proofs.«427074_j66262755443328_3_alg».proof.Proof.Gen.Kernel
import proofs.«427074_j66262755443328_3_alg».proof.Proof.Gen.Kernel.Frame
import proofs.«427074_j66262755443328_3_alg».proof.Proof.Gen.KernelIdeal
import proofs.«427074_j66262755443328_3_alg».proof.Proof.Gen.KernelIdeal.Frame
import proofs.«427074_j66262755443328_3_alg».proof.Proof.Gen.KernelIdeal.Value
import proofs.«427074_j66262755443328_3_alg».proof.Proof.Gen.ReferenceIdeal
import proofs.«427074_j66262755443328_3_alg».proof.Proof.Gen.ReferenceIdeal.Run
import proofs.«427074_j66262755443328_3_alg».proof.Proof.Gen.ReferenceIdeal.Read
import proofs.«427074_j66262755443328_3_alg».proof.Proof.Gen.Pre_finite_inputs
import proofs.«427074_j66262755443328_3_alg».proof.Proof.Spec
import proofs.«427074_j66262755443328_3_alg».proof.Proof.Finite
import proofs.«427074_j66262755443328_3_alg».proof.Proof.RefValue
import proofs.«427074_j66262755443328_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are real, the kernel ends at the three-contraction form of the result and the
    reference at the entry-by-entry form; the two forms are one function on real arrays. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.1, (hagree c).2.2.2.1, (hagree c).2.2.2.2]
  obtain ⟨r0, -, -, r3, r4⟩ := Cert.Finite.reals_of_pre _ _ _ _ _ (hpre c)
  exact (Cert.Spec.outK_eq_outR _ _ _ _ _ r0 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
